-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S800000x64 : S_.BroadcastsInDim S800000x64 (![] : Fin 0 → Fin S800000x64.rank)
  reducesTo_S800000x64_S_d0_1 : S800000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S800000x64 .f32) (main_arg1 : IVec S800000 32) (main_arg2 : IVec S800000 32) (main_arg3 : FVec F S64x64 .f32) (main_arg4 : FVec F S64 .f32) (main_arg5 : FVec F S64x64 .f32) (main_arg6 : FVec F S64 .f32) : IVec S_ 1 :=
  let main_v0 : FVec F S800000x64 .f32 := Host.absf main_arg0
  let main_cst : FVec F S_ .f32 := constant S_ .f32 0x7F800000#32
  let main_v1 : FVec F S800000x64 .f32 := broadcastInDim S800000x64 ![] bcast_S_S800000x64 main_cst
  let main_v2 : IVec S800000x64 1 := cmpf .olt main_v0 main_v1
  let main_c : IVec S_ 1 := constantI S_ 1 1#1
  let main_v3 : IVec S_ 1 := (fun x v => Host.reduce IntOp.andi x v reducesTo_S800000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000x64 : Shape := ⟨2, ![50000, 64]⟩
abbrev S800000x1 : Shape := ⟨2, ![800000, 1]⟩
abbrev S1x64 : Shape := ⟨2, ![1, 64]⟩
abbrev S8000x64 : Shape := ⟨2, ![8000, 64]⟩

abbrev nBuf : Space → Nat
  | .hbm => 33
  | .vmem => 8
  | .smem => 0
  | _ => 0

abbrev bufTy : (tb : Table) → Fin (tcTables nBuf tb) → BufTy
  | .hbm, ⟨0, _⟩ => ⟨S800000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S50000x64, .f32⟩
  | .hbm, ⟨9, _⟩ => ⟨S800000x1, .i32⟩
  | .hbm, ⟨10, _⟩ => ⟨S50000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x64, .f32⟩
  | .hbm, ⟨30, _⟩ => ⟨S1x64, .f32⟩
  | .hbm, ⟨31, _⟩ => ⟨S1x64, .f32⟩
  | .hbm, ⟨32, _⟩ => ⟨S800000x64, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | _, _ => ⟨S800000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S800000x64.size a
  hwx0_5 : ∀ i : grid0.Coords, EltTy.bits .f32 = 32 ∨ (Rect.block (s := S800000x64) S8000x64.size (cc0_transform_5 i) (hinb0_5 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_v17) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000x64 : Shape := ⟨2, ![50000, 64]⟩
abbrev S800000x1 : Shape := ⟨2, ![800000, 1]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S800000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S50000x64, .f32⟩
  | .hbm, ⟨9, _⟩ => ⟨S800000x1, .i32⟩
  | .hbm, ⟨10, _⟩ => ⟨S50000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x64, .f32⟩
  | .hbm, ⟨30, _⟩ => ⟨S800000x64, .f32⟩
  | .hbm, ⟨31, _⟩ => ⟨S1x64, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S800000x64, .f32⟩
  | .hbm, ⟨36, _⟩ => ⟨S800000x64, .f32⟩
  | .hbm, ⟨37, _⟩ => ⟨S800000x64, .f32⟩
  | .hbm, ⟨38, _⟩ => ⟨S1x64, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S800000x64, .f32⟩
  | .hbm, ⟨43, _⟩ => ⟨S800000x64, .f32⟩
  | _, _ => ⟨S800000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf

class Facts : Prop extends Facts₀ where

variable [Facts]
-- ==== Proof.EdgeMlp.lean ====
/-
  The edge perceptron, as one function of its arguments.

  Every row x of an R × 64 array X is sent through two dense layers of width 64:

      h(x)_q   = max( ∑ k, x_k · W1(k, q) + b1_q , 0 )                  the hidden layer, a rectified affine map,
      out(x)_j = ½ · ( ∑ q, h(x)_q · W2(q, j) + b2_j )                  the output layer, halved.

  All arithmetic is that of the extended reals; the two constants are kept as the words the programs print them with
  (the zero word and the word of one half), so that neither side ever has to evaluate them. The biases are taken as
  functions of the column alone: one program stores them as a vector of 64 entries, the other as a 1 × 64 array, and
  both are read through the column.

  Row r of the result depends on row r of X only (`mlp_row`): this is what lets a program compute the result one block of
  rows at a time.
-/
import Idealize.ShloMosaic.PureOps.Ideal.Laws
import Idealize.ShloMosaic.Lib.ValueIdx

noncomputable section

open scoped BigOperators

namespace Cert.EdgeMlp

open Idealize.ShloMosaic Idealize.ShloMosaic.ValueIdx

/-- The word both programs rectify against: positive zero. -/
abbrev zeroWord : EReal := Ideal.ofBits .f32 0x00000000#32

/-- The word both programs scale the result by: one half. -/
abbrev halfWord : EReal := Ideal.ofBits .f32 0x3F000000#32

/-- Entry q of the hidden layer of row r: the affine image of the row under (W1, b1), rectified. -/
def hidden {R : Nat} (X : FVec Ideal ⟨2, ![R, 64]⟩ .f32) (W1 : FVec Ideal ⟨2, ![64, 64]⟩ .f32) (b1 : Fin 64 → EReal)
    (r : Fin R) (q : Fin 64) : EReal :=
  max ((∑ k : Fin 64, X (ix2 r k) * W1 (ix2 k q)) + b1 q) zeroWord

/-- The perceptron applied to every row of X: entry (r, j) is half the affine image under (W2, b2) of row r's hidden
    layer. -/
def mlp {R : Nat} (X : FVec Ideal ⟨2, ![R, 64]⟩ .f32) (W1 : FVec Ideal ⟨2, ![64, 64]⟩ .f32) (b1 : Fin 64 → EReal)
    (W2 : FVec Ideal ⟨2, ![64, 64]⟩ .f32) (b2 : Fin 64 → EReal) : FVec Ideal ⟨2, ![R, 64]⟩ .f32 := fun e =>
  halfWord * ((∑ q : Fin 64, hidden X W1 b1 (e 0) q * W2 (ix2 q (e 1))) + b2 (e 1))

/-- The hidden layer of a row is a function of that row alone: two arrays that agree on a row (row r of one, row r' of
    the other) have the same hidden layer there. -/
theorem hidden_row {R R' : Nat} (X : FVec Ideal ⟨2, ![R, 64]⟩ .f32) (X' : FVec Ideal ⟨2, ![R', 64]⟩ .f32)
    (W1 : FVec Ideal ⟨2, ![64, 64]⟩ .f32) (b1 : Fin 64 → EReal) (r : Fin R) (r' : Fin R')
    (h : ∀ k : Fin 64, X (ix2 r k) = X' (ix2 r' k)) (q : Fin 64) :
    hidden X W1 b1 r q = hidden X' W1 b1 r' q := by
  unfold hidden
  rw [Finset.sum_congr rfl fun k _ => by rw [h k]]

/-- So is the result: entry (r, j) of the perceptron of X is entry (r', j) of the perceptron of any array whose row r'
    is X's row r. -/
theorem mlp_row {R R' : Nat} (X : FVec Ideal ⟨2, ![R, 64]⟩ .f32) (X' : FVec Ideal ⟨2, ![R', 64]⟩ .f32)
    (W1 : FVec Ideal ⟨2, ![64, 64]⟩ .f32) (b1 : Fin 64 → EReal) (W2 : FVec Ideal ⟨2, ![64, 64]⟩ .f32) (b2 : Fin 64 → EReal)
    (r : Fin R) (r' : Fin R') (h : ∀ k : Fin 64, X (ix2 r k) = X' (ix2 r' k)) (j : Fin 64) :
    mlp X W1 b1 W2 b2 (ix2 r j) = mlp X' W1 b1 W2 b2 (ix2 r' j) := by
  show halfWord * ((∑ q : Fin 64, hidden X W1 b1 r q * W2 (ix2 q j)) + b2 j)
    = halfWord * ((∑ q : Fin 64, hidden X' W1 b1 r' q * W2 (ix2 q j)) + b2 j)
  rw [Finset.sum_congr rfl fun q _ => by rw [hidden_row X X' W1 b1 r r' h q]]

/-- The same with every argument allowed to change: the perceptron at (r, j) only reads row r of the array, and reads the
    weights and biases entry by entry, so arguments that agree entry by entry (the arrays on the one row) give the same
    value. -/
theorem mlp_congr {R R' : Nat} (X : FVec Ideal ⟨2, ![R, 64]⟩ .f32) (X' : FVec Ideal ⟨2, ![R', 64]⟩ .f32)
    (W1 W1' : FVec Ideal ⟨2, ![64, 64]⟩ .f32) (b1 b1' : Fin 64 → EReal) (W2 W2' : FVec Ideal ⟨2, ![64, 64]⟩ .f32)
    (b2 b2' : Fin 64 → EReal) (r : Fin R) (r' : Fin R') (hX : ∀ k : Fin 64, X (ix2 r k) = X' (ix2 r' k))
    (hW1 : ∀ e, W1 e = W1' e) (hb1 : ∀ q, b1 q = b1' q) (hW2 : ∀ e, W2 e = W2' e) (hb2 : ∀ q, b2 q = b2' q) (j : Fin 64) :
    mlp X W1 b1 W2 b2 (ix2 r j) = mlp X' W1' b1' W2' b2' (ix2 r' j) := by
  obtain rfl : W1 = W1' := funext hW1
  obtain rfl : b1 = b1' := funext hb1
  obtain rfl : W2 = W2' := funext hW2
  obtain rfl : b2 = b2' := funext hb2
  exact mlp_row X X' W1 b1 W2 b2 r r' hX j

end Cert.EdgeMlp
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelPayload.lean ====
/-
  What the kernel body computes on one block of rows.

  At a grid point the body loads a block x of 8000 rows, the two 64 × 64 weight arrays and the two biases as 1 × 64
  arrays, and stores ONE value over the whole output block. Its conversions to the 16-bit format and back are the
  identity on the extended reals, its shape casts are casts of a shape to itself, and its two matrix products are
  products into an all-zero accumulator. So at entry (p, j) of the block the stored value is the perceptron of
  `EdgeMlp` applied to the loaded block: the plain product read at an entry is the sum over the 64 contraction
  positions, and a 1 × 64 bias spread over the rows reads its entry j.
-/
import proofs.«101549_j83013127897105_1_alg».proof.Proof.Gen.KernelIdeal.Skeleton
import proofs.«101549_j83013127897105_1_alg».proof.Proof.EdgeMlp
import proofs.«101549_j83013127897105_1_alg».proof.Proof.LibDotPlain
import Idealize.ShloMosaic.Lib.ValueLayout
import Idealize.ShloMosaic.Lib.Pipeline.Value

noncomputable section

open scoped BigOperators

namespace Cert.KernelIdeal.BlockValue

open Cert.KernelIdeal Cert.KernelIdeal.Gen Idealize.ShloMosaic Idealize.ShloMosaic.ValueIdx

/-- The body's hidden activations on a block: the first product plus the spread bias, rectified against zero. -/
def act (x0 : Vec Ideal S8000x64 .f32) (x1 : Vec Ideal S64x64 .f32) (x2 : Vec Ideal S1x64 .f32) :
    FVec Ideal ⟨2, ![8000, 64]⟩ .f32 := fun e =>
  max (FloatOps.matmul (φ₁ := .bf16) (φ₂ := .bf16) (DotDims.plain 8000 64 64) none x0 x1 (constant ⟨2, ![8000, 64]⟩ .f32 0x00000000#32) e
      + broadcastTo ⟨2, ![8000, 64]⟩ x2 broadcasts_S1x64_S8000x64 e) EdgeMlp.zeroWord

/-- Entry (p, q) of the activations is the hidden layer of row p of the block. -/
theorem act_apply (x0 : Vec Ideal S8000x64 .f32) (x1 : Vec Ideal S64x64 .f32) (x2 : Vec Ideal S1x64 .f32)
    (p : Fin 8000) (q : Fin 64) :
    act x0 x1 x2 (ix2 p q) = EdgeMlp.hidden x0 x1 (fun c => x2 (ix2 (0 : Fin 1) c)) p q := by
  unfold act EdgeMlp.hidden
  rw [LibDotPlain.matmul_zero_plain, broadcastTo_1b_ab_apply]

/-- The stored value with its identities removed: half of (activations times the second weights, plus the second
    bias spread over the rows). -/
theorem pay_eq (x0 : Vec Ideal S8000x64 .f32) (x1 : Vec Ideal S64x64 .f32) (x2 : Vec Ideal S1x64 .f32)
    (x3 : Vec Ideal S64x64 .f32) (x4 : Vec Ideal S1x64 .f32) (e : S8000x64.Idx) :
    k0_pay1 (F := Ideal) x0 x1 x2 x3 x4 e
      = EdgeMlp.halfWord * (FloatOps.matmul (φ₁ := .bf16) (φ₂ := .bf16) (DotDims.plain 8000 64 64) none (act x0 x1 x2) x3
            (constant ⟨2, ![8000, 64]⟩ .f32 0x00000000#32) e
          + broadcastTo ⟨2, ![8000, 64]⟩ x4 broadcasts_S1x64_S8000x64 e) := by
  unfold k0_pay1
  simp only [shapeCast_self]
  rfl

/-- Entry (p, j) of the stored value is entry (p, j) of the perceptron of the loaded block. -/
theorem pay_apply (x0 : Vec Ideal S8000x64 .f32) (x1 : Vec Ideal S64x64 .f32) (x2 : Vec Ideal S1x64 .f32)
    (x3 : Vec Ideal S64x64 .f32) (x4 : Vec Ideal S1x64 .f32) (p : Fin 8000) (j : Fin 64) :
    k0_pay1 (F := Ideal) x0 x1 x2 x3 x4 (ix2 p j)
      = EdgeMlp.mlp x0 x1 (fun c => x2 (ix2 (0 : Fin 1) c)) x3 (fun c => x4 (ix2 (0 : Fin 1) c)) (ix2 p j) := by
  rw [pay_eq, LibDotPlain.matmul_zero_plain, broadcastTo_1b_ab_apply]
  show _ = EdgeMlp.halfWord * ((∑ q : Fin 64, EdgeMlp.hidden x0 x1 (fun c => x2 (ix2 (0 : Fin 1) c)) p q * x3 (ix2 q j))
    + x4 (ix2 (0 : Fin 1) j))
  rw [Finset.sum_congr rfl fun q _ => by rw [act_apply]]

end Cert.KernelIdeal.BlockValue
-- ==== Proof.KernelBlocks.lean ====
/-
  The blocks the region's body sees at a grid point.

  The region runs its body at 100 grid points. At point t the array of 800000 rows it is handed is read through the
  block of rows 8000·t … 8000·t + 7999, all 64 columns. The two weight arrays and the two 1 × 64 biases are read whole at
  every point: their block index is (0, 0) and their block is their whole array. The output block written back at
  point t is again rows 8000·t … 8000·t + 7999. The index maps are the printed ones, checked at each of the 100 points.

  A block read is a statement about WHERE an array is read, whatever the array holds; each is proved for an arbitrary
  array first and only then said of the arrays the region finds.
-/
import proofs.«101549_j83013127897105_1_alg».proof.Proof.Gen.KernelIdeal.Value
import proofs.«101549_j83013127897105_1_alg».proof.Proof.KernelPayload

-- the facts decided over the grid are checked one after the other
set_option Elab.async false

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets : (![0, 0] : Fin 2 → Nat) = fun _ => 0 := funext fun a => by fin_cases a <;> rfl

/-- The printed index maps over the 100 grid points: the rows window and the output window sit at block (t, 0); the
    four resident windows at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 100 :=
  (by decide +kernel : ∀ t : Fin grid0.N, _)

/-- Every block of 8000 rows is some point's output block. -/
theorem block_onto : ∀ q : Fin 100, ∃ t : Fin cfg0.N, win0_5.index t = ![q.val, 0] :=
  (by decide +kernel : ∀ q : Fin 100, ∃ t : Fin grid0.N, win0_5.index t = ![q.val, 0])

/-! ## Where each window reads its array at a point -/

/-- Entry y of the rows block at point t is the array's entry r, when r is row 8000·t + (row of y), same column. -/
theorem read_rows (X : S800000x64.Idx → Elt Ideal .f32) (t : Fin cfg0.N) (y : S8000x64.Idx) (r : S800000x64.Idx)
    (h0 : (r 0).val = t.val * 8000 + (y 0).val) (h1 : (r 1).val = (y 1).val) :
    ((cfg0.win 0).blk t).view.read (Elt Ideal) X y = X r := by
  obtain ⟨e0, e1, -⟩ := block_indices t
  show X (((cfg0.win 0).blk t).view.emb y) = X r
  refine congrArg X (funext fun a => Fin.ext ?_)
  match a with
  | ⟨0, _⟩ => show win0_0.index t (0 : Fin 2) * 8000 + 1 * (y 0).val = (r 0).val; omega
  | ⟨1, _⟩ => show win0_0.index t (1 : Fin 2) * 64 + 1 * (y 1).val = (r 1).val; omega

/-- The first weights' block is the whole array, at every point. -/
theorem read_w1 (X : S64x64.Idx → Elt Ideal .f32) (t : Fin cfg0.N) (e : S64x64.Idx) :
    ((cfg0.win 1).blk t).view.read (Elt Ideal) X e = X e := by
  obtain ⟨-, -, e0, e1, -⟩ := block_indices t
  show X (((cfg0.win 1).blk t).view.emb e) = X e
  refine congrArg X (funext fun a => Fin.ext ?_)
  match a with
  | ⟨0, _⟩ => show win0_1.index t (0 : Fin 2) * 64 + 1 * (e 0).val = (e 0).val; omega
  | ⟨1, _⟩ => show win0_1.index t (1 : Fin 2) * 64 + 1 * (e 1).val = (e 1).val; omega

/-- The first bias's block is the whole 1 × 64 array. -/
theorem read_b1 (X : S1x64.Idx → Elt Ideal .f32) (t : Fin cfg0.N) (e : S1x64.Idx) :
    ((cfg0.win 2).blk t).view.read (Elt Ideal) X e = X e := by
  obtain ⟨-, -, -, -, e0, e1, -⟩ := block_indices t
  show X (((cfg0.win 2).blk t).view.emb e) = X e
  refine congrArg X (funext fun a => Fin.ext ?_)
  match a with
  | ⟨0, _⟩ => show win0_2.index t (0 : Fin 2) * 1 + 1 * (e 0).val = (e 0).val; omega
  | ⟨1, _⟩ => show win0_2.index t (1 : Fin 2) * 64 + 1 * (e 1).val = (e 1).val; omega

/-- The second weights' block is the whole array. -/
theorem read_w2 (X : S64x64.Idx → Elt Ideal .f32) (t : Fin cfg0.N) (e : S64x64.Idx) :
    ((cfg0.win 3).blk t).view.read (Elt Ideal) X e = X e := by
  obtain ⟨-, -, -, -, -, -, e0, e1, -⟩ := block_indices t
  show X (((cfg0.win 3).blk t).view.emb e) = X e
  refine congrArg X (funext fun a => Fin.ext ?_)
  match a with
  | ⟨0, _⟩ => show win0_3.index t (0 : Fin 2) * 64 + 1 * (e 0).val = (e 0).val; omega
  | ⟨1, _⟩ => show win0_3.index t (1 : Fin 2) * 64 + 1 * (e 1).val = (e 1).val; omega

/-- The second bias's block is the whole 1 × 64 array. -/
theorem read_b2 (X : S1x64.Idx → Elt Ideal .f32) (t : Fin cfg0.N) (e : S1x64.Idx) :
    ((cfg0.win 4).blk t).view.read (Elt Ideal) X e = X e := by
  obtain ⟨-, -, -, -, -, -, -, -, e0, e1, -⟩ := block_indices t
  show X (((cfg0.win 4).blk t).view.emb e) = X e
  refine congrArg X (funext fun a => Fin.ext ?_)
  match a with
  | ⟨0, _⟩ => show win0_4.index t (0 : Fin 2) * 1 + 1 * (e 0).val = (e 0).val; omega
  | ⟨1, _⟩ => show win0_4.index t (1 : Fin 2) * 64 + 1 * (e 1).val = (e 1).val; omega

/-- Entry y of the output block at point t sits in the output array at row 8000·t + (row of y), same column. -/
theorem out_emb (t : Fin cfg0.N) (y : S8000x64.Idx) (r : S800000x64.Idx)
    (h0 : (r 0).val = t.val * 8000 + (y 0).val) (h1 : (r 1).val = (y 1).val) :
    ((cfg0.win 5).blk t).view.emb y = r := by
  obtain ⟨-, -, -, -, -, -, -, -, -, -, e0, e1, -⟩ := block_indices t
  funext a; apply Fin.ext
  match a with
  | ⟨0, _⟩ => show win0_5.index t (0 : Fin 2) * 8000 + 1 * (y 0).val = (r 0).val; omega
  | ⟨1, _⟩ => show win0_5.index t (1 : Fin 2) * 64 + 1 * (y 1).val = (r 1).val; omega

end Cert.KernelIdeal.Blocks
-- ==== Proof.KernelArray.lean ====
/-
  From blocks of rows to the whole output array.

  The perceptron of `EdgeMlp` acts on each row by itself. At grid point t the body is handed rows 8000·t … 8000·t + 7999 of
  the gathered array together with the whole weights and biases, and it stores the perceptron of that block over the
  whole output block; so what point t writes back is block t of ONE array, the perceptron of the arrays the region is
  handed (`block_value`, for arbitrary arrays; `flushed_eq`, for the region's). The 100 blocks tile the 800000 rows (row
  r lies in block r / 8000), so after the run the output array IS that perceptron.
-/
import proofs.«101549_j83013127897105_1_alg».proof.Proof.KernelBlocks

noncomputable section

open scoped BigOperators

namespace Cert.KernelIdeal.ArrayValue

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

/-! ## What a point writes back, for arbitrary arrays -/

/-- The perceptron of five arrays laid out as the region's operands are: the rows, the first weights, the first bias as a
    1 × 64 array (read along its one row), the second weights, the second bias likewise. -/
def ofArrays (X0 : S800000x64.Idx → Elt Ideal .f32) (X1 : S64x64.Idx → Elt Ideal .f32) (X2 : S1x64.Idx → Elt Ideal .f32)
    (X3 : S64x64.Idx → Elt Ideal .f32) (X4 : S1x64.Idx → Elt Ideal .f32) : S800000x64.Idx → Elt Ideal .f32 :=
  EdgeMlp.mlp (R := 800000) X0 X1 (fun q => X2 (ix2 (0 : Fin 1) q)) X3 (fun q => X4 (ix2 (0 : Fin 1) q))

/-- The body's stored value on the blocks of five arrays at point t, read through the output window's block, is block
    t of the perceptron of the five arrays. -/
theorem block_value (X0 : S800000x64.Idx → Elt Ideal .f32) (X1 : S64x64.Idx → Elt Ideal .f32) (X2 : S1x64.Idx → Elt Ideal .f32)
    (X3 : S64x64.Idx → Elt Ideal .f32) (X4 : S1x64.Idx → Elt Ideal .f32) (t : Fin cfg0.N) :
    (cfg0.win 5).cut (grid0.coords t)
        (out0_5 (((cfg0.win 0).blk t).view.read (Elt Ideal) X0) (((cfg0.win 1).blk t).view.read (Elt Ideal) X1)
          (((cfg0.win 2).blk t).view.read (Elt Ideal) X2) (((cfg0.win 3).blk t).view.read (Elt Ideal) X3)
          (((cfg0.win 4).blk t).view.read (Elt Ideal) X4))
      = ((cfg0.win 5).blk t).view.read (Elt Ideal) (ofArrays X0 X1 X2 X3 X4) := by
  unfold out0_5
  rw [View.canon_unit_zero zero_offsets]
  simp only [View.ld_unit_zero (S := S8000x64) zero_offsets, View.ld_unit_zero (S := S64x64) zero_offsets,
    View.ld_unit_zero (S := S1x64) zero_offsets]
  obtain ⟨-, -, -, -, -, -, -, -, -, -, -, -, ht⟩ := block_indices t
  refine funext fun (y : S8000x64.Idx) => ?_
  obtain ⟨p, j, rfl⟩ : ∃ (p : Fin 8000) (j : Fin 64), y = ix2 p j := ⟨y 0, y 1, eq_ix2 y⟩
  have hp : p.val < 8000 := p.isLt
  have hr : t.val * 8000 + p.val < 800000 := by omega
  show k0_pay1 (F := Ideal) (((cfg0.win 0).blk t).view.read (Elt Ideal) X0) (((cfg0.win 1).blk t).view.read (Elt Ideal) X1)
      (((cfg0.win 2).blk t).view.read (Elt Ideal) X2) (((cfg0.win 3).blk t).view.read (Elt Ideal) X3)
      (((cfg0.win 4).blk t).view.read (Elt Ideal) X4) (ix2 p j)
    = ofArrays X0 X1 X2 X3 X4 (((cfg0.win 5).blk t).view.emb (ix2 p j))
  rw [out_emb t (ix2 p j) (ix2 (⟨t.val * 8000 + p.val, hr⟩ : Fin 800000) j) rfl rfl]
  refine (BlockValue.pay_apply (((cfg0.win 0).blk t).view.read (Elt Ideal) X0) (((cfg0.win 1).blk t).view.read (Elt Ideal) X1)
      (((cfg0.win 2).blk t).view.read (Elt Ideal) X2) (((cfg0.win 3).blk t).view.read (Elt Ideal) X3)
      (((cfg0.win 4).blk t).view.read (Elt Ideal) X4) p j).trans ?_
  exact EdgeMlp.mlp_congr (R := 8000) (R' := 800000) (((cfg0.win 0).blk t).view.read (Elt Ideal) X0) X0
    (((cfg0.win 1).blk t).view.read (Elt Ideal) X1) X1
    (fun q => ((cfg0.win 2).blk t).view.read (Elt Ideal) X2 (ix2 (0 : Fin 1) q)) (fun q => X2 (ix2 (0 : Fin 1) q))
    (((cfg0.win 3).blk t).view.read (Elt Ideal) X3) X3
    (fun q => ((cfg0.win 4).blk t).view.read (Elt Ideal) X4 (ix2 (0 : Fin 1) q)) (fun q => X4 (ix2 (0 : Fin 1) q))
    p ⟨t.val * 8000 + p.val, hr⟩
    (fun k => read_rows X0 t (ix2 p k) (ix2 (⟨t.val * 8000 + p.val, hr⟩ : Fin 800000) k) rfl rfl)
    (read_w1 X1 t) (fun q => read_b1 X2 t (ix2 (0 : Fin 1) q)) (read_w2 X3 t) (fun q => read_b2 X4 t (ix2 (0 : Fin 1) q)) j

/-! ## The region's arrays -/

variable (m : (ℓ : Loc nD τ sig) → Buf (Elt Ideal) ℓ) (ρ : Dev nD → PrngReg)

/-- The perceptron of the arrays the region finds. -/
def whole (c : Dev nD) : S800000x64.Idx → Elt Ideal .f32 :=
  ofArrays (V m c main_v17) (V m c main_arg3) (V m c main_v18) (V m c main_arg5) (V m c main_v19)

/-- Point t writes back block t of the perceptron of the region's arrays. -/
theorem flushed_eq (c : Dev nD) (t : Fin cfg0.N) :
    (dats m 0 c).flushed 5 t = ((cfg0.win 5).blk t).view.read (Elt Ideal) (whole m c) := by
  rw [Cert.KernelIdeal.Value.flushed5]
  exact block_value (V m c main_v17) (V m c main_arg3) (V m c main_v18) (V m c main_arg5) (V m c main_v19) t

/-! ## The blocks tile the array -/

/-- An index of the output array is in point t's block iff each coordinate is in the block's range on its axis. -/
theorem mem_block (t : Fin cfg0.N) (i : S800000x64.Idx) :
    i ∈ ((cfg0.win 5).blk t).view.set ↔ ∀ a : Fin 2, win0_5.index t a * S8000x64.size a ≤ (i a).val
      ∧ (i a).val < win0_5.index t a * S8000x64.size a + S8000x64.size a := by
  show i ∈ ((View.whole main_v20).slice (win0_5.rect t)).set ↔ _
  rw [View.set_slice_whole, Rect.mem_set_unit]
  exact Iff.rfl

/-- Every index of the output array lies in the block of the point whose rows hold it: row r is in block r / 8000. -/
theorem covered (i : S800000x64.Idx) :
    ∃ t : Fin cfg0.N, (cfg0.win 5).flush t = true ∧ i ∈ ((cfg0.win 5).blk t).view.set := by
  have hi0 : (i 0).val < 800000 := (i 0).isLt
  have hi1 : (i 1).val < 64 := (i 1).isLt
  obtain ⟨t, ht⟩ := block_onto ⟨(i 0).val / 8000, by omega⟩
  have q0 : win0_5.index t (0 : Fin 2) = (i 0).val / 8000 := congrFun ht 0
  have q1 : win0_5.index t (1 : Fin 2) = 0 := congrFun ht 1
  refine ⟨t, flush0_5 t, ?_⟩
  rw [mem_block]
  intro a
  match a with
  | ⟨0, _⟩ =>
    show win0_5.index t (0 : Fin 2) * 8000 ≤ (i 0).val ∧ (i 0).val < win0_5.index t (0 : Fin 2) * 8000 + 8000
    omega
  | ⟨1, _⟩ =>
    show win0_5.index t (1 : Fin 2) * 64 ≤ (i 1).val ∧ (i 1).val < win0_5.index t (1 : Fin 2) * 64 + 64
    omega

/-- After the run the output array is the perceptron of the region's arrays. -/
theorem final (c : Dev nD) : (dats m 0 c).arrAt 5 cfg0.N = whole m c :=
  (dats m 0 c).arrAt_eq_of_cover 5 (whole m c) (fun t _ => flushed_eq m c t) covered

end Cert.KernelIdeal.ArrayValue
-- ==== Proof.KernelHost.lean ====
/-
  What the region is handed, in terms of the arguments of the program.

  Before the region the program runs plain array operations. It adds every edge's feature row into the row of the
  edge's destination node, starting from an all-zero 50000 × 64 table (`nodeSums`); it wraps each endpoint index that is
  negative by adding 50000 (`wrapped`); it reads the table's rows at the wrapped source endpoints and at the wrapped
  destination endpoints and adds the two (`gathered`): one 64-entry row per edge, the region's first operand. The two
  biases are re-laid from 64 entries to 1 × 64, which moves no entry: entry (0, q) of the re-laid array is entry q. The two
  weight arrays are operands as they were launched.

  The scatter-add and the row reads are never opened here: both programs apply them to the same operands, so it is
  enough to name the composite.
-/
import proofs.«101549_j83013127897105_1_alg».proof.Proof.Gen.KernelIdeal.Frame
import Idealize.ShloMosaic.Lib.StableHlo.Run
import Idealize.ShloMosaic.Lib.ValueLayout

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

/-- The node table: row v is the sum of the feature rows of the edges whose destination is v. -/
def nodeSums (x0 : FVec Ideal S800000x64 .f32) (x2 : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 x2) x0

/-- An endpoint index, with 50000 added where it is negative. -/
def wrapped (x : IVec S800000 32) : IVec S800000 32 :=
  select (cmpi .slt x (broadcastInDim S800000 ![] bcast_S_S800000 (constantI S_ 32 0#32)))
    (addi x (broadcastInDim S800000 ![] bcast_S_S800000 (constantI S_ 32 50000#32))) x

/-- The rows of a table at the wrapped endpoints, one per edge. -/
def rowsAt (T : FVec Ideal S50000x64 .f32) (x : IVec S800000 32) : FVec Ideal S800000x64 .f32 :=
  Host.gather gather_S50000x64_S800000x1_S800000x64_1_0_n_n_0_1_164 T
    (broadcastInDim S800000x1 ![0] bcast_S800000_S800000x1_0 (wrapped x))

/-- The region's first operand: for each edge, the node sums at its source plus the node sums at its destination. -/
def gathered (x0 : FVec Ideal S800000x64 .f32) (x1 x2 : IVec S800000 32) : FVec Ideal S800000x64 .f32 :=
  addf (F := Ideal) (rowsAt (nodeSums x0 x2) x1) (rowsAt (nodeSums x0 x2) x2)

variable (m : (ℓ : Loc nD τ sig) → Buf (Elt Ideal) ℓ)

set_option maxHeartbeats 2000000 in
/-- The region finds its first operand at `gathered` of the launched feature rows and endpoint indices. -/
theorem V_rows (c : Dev nD) :
    (V m c main_v17 : S800000x64.Idx → EReal)
      = gathered (m ((c : Thread nD τ).loc main_arg0)) (m ((c : Thread nD τ).loc main_arg1)) (m ((c : Thread nD τ).loc main_arg2)) := by
  dsimp only [V, hostOps0]
  after_results_simp
  rfl

set_option maxHeartbeats 2000000 in
/-- The region finds the first bias re-laid as 1 × 64: entry (0, q) is entry q of the launched bias. -/
theorem V_bias1 (c : Dev nD) (q : Fin 64) :
    (V m c main_v18 : S1x64.Idx → EReal) (ix2 (0 : Fin 1) q) = m ((c : Thread nD τ).loc main_arg4) (ix1 q) := by
  have e : (V m c main_v18 : S1x64.Idx → EReal)
      = shapeCast S1x64 (m ((c : Thread nD τ).loc main_arg4) : S64.Idx → EReal) shapeCasts_S64_S1x64 := by
    dsimp only [V, hostOps0]
    after_results_simp
    rfl
  rw [e]
  exact shapeCast_a_1a_apply _ _ (0 : Fin 1) q

set_option maxHeartbeats 2000000 in
/-- The second bias likewise. -/
theorem V_bias2 (c : Dev nD) (q : Fin 64) :
    (V m c main_v19 : S1x64.Idx → EReal) (ix2 (0 : Fin 1) q) = m ((c : Thread nD τ).loc main_arg6) (ix1 q) := by
  have e : (V m c main_v19 : S1x64.Idx → EReal)
      = shapeCast S1x64 (m ((c : Thread nD τ).loc main_arg6) : S64.Idx → EReal) shapeCasts_S64_S1x64 := by
    dsimp only [V, hostOps0]
    after_results_simp
    rfl
  rw [e]
  exact shapeCast_a_1a_apply _ _ (0 : Fin 1) q

end Cert.KernelIdeal.HostValue
-- ==== Proof.RefMlp.lean ====
/-
  The reference computes the perceptron of the gathered array.

  After its scatter-add and its two gathers the reference holds an 800000 × 64 array X (its value `val_main_v17`), and
  from there on it is the perceptron of `EdgeMlp` applied to X, stage by stage: a product with W1, the bias b1 spread
  over the rows, the maximum with zero, a product with W2, the bias b2, and the product with one half. Read at entry
  (r, j), each matrix product is the sum over the 64 contraction positions of the left factor's row r times the right
  factor's column j, and each spread bias is its entry j. No law of the extended reals is used: the two sides are the same
  expression.
-/
import proofs.«101549_j83013127897105_1_alg».proof.Proof.Gen.ReferenceIdeal.Read
import proofs.«101549_j83013127897105_1_alg».proof.Proof.EdgeMlp

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Where the stages read their operands at entry (r, j) -/

/-- The left factor of either product at contraction position k: row r, column k. -/
theorem left_v18 (r : Fin 800000) (j k : Fin 64) : lidx_main_v18 (ix2 r j) k = ix2 r k :=
  funext fun a => by match a with | ⟨0, _⟩ => rfl | ⟨1, _⟩ => rfl

/-- The right factor at contraction position k: row k, column j. -/
theorem right_v18 (r : Fin 800000) (j k : Fin 64) : ridx_main_v18 (ix2 r j) k = ix2 k j :=
  funext fun a => by match a with | ⟨0, _⟩ => rfl | ⟨1, _⟩ => rfl

theorem left_v23 (r : Fin 800000) (j k : Fin 64) : lidx_main_v23 (ix2 r j) k = ix2 r k :=
  funext fun a => by match a with | ⟨0, _⟩ => rfl | ⟨1, _⟩ => rfl

theorem right_v23 (r : Fin 800000) (j k : Fin 64) : ridx_main_v23 (ix2 r j) k = ix2 k j :=
  funext fun a => by match a with | ⟨0, _⟩ => rfl | ⟨1, _⟩ => rfl

/-- The first bias, spread to 1 × 64 and then over the rows, read at (r, j), is its entry j. -/
theorem bias_v20 (r : Fin 800000) (j : Fin 64) : idx_main_v19 (idx_main_v20 (ix2 r j)) = ix1 j :=
  funext fun a => by match a with | ⟨0, _⟩ => rfl

/-- The second bias likewise. -/
theorem bias_v25 (r : Fin 800000) (j : Fin 64) : idx_main_v24 (idx_main_v25 (ix2 r j)) = ix1 j :=
  funext fun a => by match a with | ⟨0, _⟩ => rfl

/-! ## The hidden layer, then the result -/

/-- The reference's rectified stage at (r, q) is the hidden layer of row r of the gathered array. -/
theorem hidden_eq (x0 : (⟨S800000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal)) (r : Fin 800000) (q : Fin 64) :
    val_main_v22 (F := Ideal) x0 x1 x2 x3 x4 (ix2 r q)
      = EdgeMlp.hidden (val_main_v17 (F := Ideal) x0 x1 x2) x3 (fun c => x4 (ix1 c)) r q := by
  rw [val_main_v22_apply, val_main_v21_apply, val_main_v18_apply, val_main_v20_apply, val_main_v19_apply,
    val_main_call0_v0_apply, val_main_call0_cst_apply, bias_v20]
  simp only [left_v18, right_v18]
  rfl

/-- The reference's result is the perceptron of the gathered array. -/
theorem result_eq (x0 : (⟨S800000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v28 (F := Ideal) x0 x1 x2 x3 x4 x5 x6
      = EdgeMlp.mlp (val_main_v17 (F := Ideal) x0 x1 x2) x3 (fun c => x4 (ix1 c)) x5 (fun c => x6 (ix1 c)) := by
  funext i
  obtain ⟨r, j, rfl⟩ : ∃ (r : Fin 800000) (j : Fin 64), i = ix2 r j := ⟨i 0, i 1, eq_ix2 i⟩
  rw [val_main_v28_apply, val_main_v27_apply, val_main_cst_3_apply, val_main_v26_apply, val_main_v23_apply,
    val_main_v25_apply, val_main_v24_apply, bias_v25]
  simp only [left_v23, right_v23, hidden_eq]
  rfl

end Cert.ReferenceIdeal.RefValue
-- ==== Proof.lean ====
/-
  Edge perceptron after a scatter-add and two row gathers: the kernel against its reference, over the extended reals.

  Both programs first build, with the same plain array operations on the same arguments, one 64-entry row per edge: the
  sum over a node's incoming edges of their feature rows, read at the edge's source and at its destination and added.
  Both then send every such row x through the same two-layer perceptron

      out(x)_j = ½ · ( ∑ q, max( ∑ k, x_k · W1(k, q) + b1_q , 0 ) · W2(q, j) + b2_j ).

  The reference does it with two whole-array matrix products. The kernel does it 8000 rows at a time over a grid of 100
  points, with its operands narrowed to a 16-bit format before each product; on the extended reals the narrowing is the
  identity, a product accumulated into zeros is the plain sum of products, and the perceptron treats each row by itself,
  so the 100 output blocks are the blocks of the one whole-array result. No law of the extended reals beyond renaming
  the index of a sum is used, so the finiteness of the inputs is never called on.

  The three runs: the kernel's two are the region's generated run; the reference's is its generated run with the result
  dropped. The idealized kernel is the kernel's own text read at the exact instance, so nothing is owed for that step.
-/
import proofs.«101549_j83013127897105_1_alg».proof.Defs
import proofs.«101549_j83013127897105_1_alg».proof.Proof.Gen.Kernel
import proofs.«101549_j83013127897105_1_alg».proof.Proof.Gen.Kernel.Frame
import proofs.«101549_j83013127897105_1_alg».proof.Proof.Gen.KernelIdeal
import proofs.«101549_j83013127897105_1_alg».proof.Proof.Gen.KernelIdeal.Frame
import proofs.«101549_j83013127897105_1_alg».proof.Proof.Gen.KernelIdeal.Value
import proofs.«101549_j83013127897105_1_alg».proof.Proof.Gen.ReferenceIdeal
import proofs.«101549_j83013127897105_1_alg».proof.Proof.Gen.ReferenceIdeal.Run
import proofs.«101549_j83013127897105_1_alg».proof.Proof.Gen.ReferenceIdeal.Read
import proofs.«101549_j83013127897105_1_alg».proof.Proof.Gen.Pre_finite_inputs
import proofs.«101549_j83013127897105_1_alg».proof.Proof.KernelArray
import proofs.«101549_j83013127897105_1_alg».proof.Proof.KernelHost
import proofs.«101549_j83013127897105_1_alg».proof.Proof.RefMlp
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result in terms of the launched arguments -/

section KernelResult

open Cert.KernelIdeal Cert.KernelIdeal.Gen

variable (m : (ℓ : Loc nD τ sig) → Buf (Elt Ideal) ℓ) (ρ : Dev nD → PrngReg)

/-- The perceptron of the gathered rows, with the weights and biases as launched. -/
def result (c : Dev nD) : S800000x64.Idx → Elt Ideal .f32 :=
  EdgeMlp.mlp
    (Cert.KernelIdeal.HostValue.gathered (m ((c : Thread nD τ).loc main_arg0)) (m ((c : Thread nD τ).loc main_arg1))
      (m ((c : Thread nD τ).loc main_arg2)))
    (m ((c : Thread nD τ).loc main_arg3)) (fun q => m ((c : Thread nD τ).loc main_arg4) (ix1 q))
    (m ((c : Thread nD τ).loc main_arg5)) (fun q => m ((c : Thread nD τ).loc main_arg6) (ix1 q))

/-- The perceptron of the arrays the region finds is the perceptron of the launched arguments: the rows are the
    gathered rows, the weights are as launched, and each re-laid bias reads its launched entries. -/
theorem whole_eq (c : Dev nD) : Cert.KernelIdeal.ArrayValue.whole m c = result m c := by
  unfold Cert.KernelIdeal.ArrayValue.whole Cert.KernelIdeal.ArrayValue.ofArrays result
  rw [Cert.KernelIdeal.HostValue.V_rows m c, V_main_arg3 m c, V_main_arg5 m c]
  simp only [Cert.KernelIdeal.HostValue.V_bias1 m c, Cert.KernelIdeal.HostValue.V_bias2 m c]

end KernelResult

/-! ## The two programs gather the same rows -/

/-- The reference's gathered array is the kernel program's: the same operations on the same operands. -/
theorem gathered_eq (x0 : (⟨Cert.ReferenceIdeal.S800000x64, .f32⟩ : BufTy).Contents (Elt Ideal))
    (x1 x2 : (⟨Cert.ReferenceIdeal.S800000, .i32⟩ : BufTy).Contents (Elt Ideal)) :
    Cert.ReferenceIdeal.Read.val_main_v17 (F := Ideal) x0 x1 x2 = Cert.KernelIdeal.HostValue.gathered x0 x1 x2 := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the perceptron of the gathered rows: the kernel's output array after its 100 blocks are
    written back, and the reference's last stage. -/
theorem algebraic : Cert.algebraic_KernelIdeal_ReferenceIdeal := by
  intro m ρ m' ρ' _ hagree
  refine ⟨fun c => result m c, ?_, ?_⟩
  · exact (θ_run Cert.KernelIdeal.defs _ _).mono
      (fun r h c => ⟨(h c).1.trans ((Cert.KernelIdeal.ArrayValue.final m c).trans (whole_eq m c)), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v28_eq, Cert.ReferenceIdeal.RefValue.result_eq, gathered_eq, a0, a1, a2, a3, a4,
      a5, a6]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
